-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8 : Shape := ⟨2, ![65536, 8]⟩
abbrev S8x1024x1024 : Shape := ⟨3, ![8, 1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : IVec S65536x8 32) (main_arg1 : FVec F S8x1024x1024 .f32) : IVec S_ 1 :=
  let main_v0 : FVec F S8x1024x1024 .f32 := Host.absf main_arg1
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_c_0 : IVec S_ 32 := constantI S_ 32 4294966272#32
  let main_v4 : IVec S65536x8 32 := broadcastInDim S65536x8 ![] bcast_S_S65536x8 main_c_0
  let main_v5 : IVec S65536x8 1 := cmpi .sge main_arg0 main_v4
  let main_c_1 : IVec S_ 1 := constantI S_ 1 1#1
  let main_v6 : IVec S_ 1 := (fun x v => Host.reduce IntOp.andi x v reducesTo_S65536x8_S_d0_1 h_S_) main_v5 main_c_1
  let main_v7 : IVec S_ 1 := andi main_v3 main_v6
  let main_c_2 : IVec S_ 32 := constantI S_ 32 1024#32
  let main_v8 : IVec S65536x8 32 := broadcastInDim S65536x8 ![] bcast_S_S65536x8 main_c_2
  let main_v9 : IVec S65536x8 1 := cmpi .slt main_arg0 main_v8
  let main_c_3 : IVec S_ 1 := constantI S_ 1 1#1
  let main_v10 : IVec S_ 1 := (fun x v => Host.reduce IntOp.andi x v reducesTo_S65536x8_S_d0_1 h_S_) main_v9 main_c_3
  let main_v11 : IVec S_ 1 := andi main_v7 main_v10
  main_v11
-- ==== Kernel.lean ====
abbrev S65536x8 : Shape := ⟨2, ![65536, 8]⟩
abbrev S8x1024x1024 : Shape := ⟨3, ![8, 1024, 1024]⟩
abbrev S_ : Shape := ⟨0, ![]⟩
abbrev S65536x1024 : Shape := ⟨2, ![65536, 1024]⟩
abbrev S512x8 : Shape := ⟨2, ![512, 8]⟩
abbrev S512x1024 : Shape := ⟨2, ![512, 1024]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 26
  | .vmem => 6
  | .smem => 0
  | _ => 0

abbrev bufTy : (tb : Table) → Fin (tcTables nBuf tb) → BufTy
  | .hbm, ⟨0, _⟩ => ⟨S65536x8, .i32⟩
  | .hbm, ⟨1, _⟩ => ⟨S8x1024x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S65536x8, .i32⟩
  | .hbm, ⟨9, _⟩ => ⟨S65536x8, .i32⟩
  | .hbm, ⟨10, _⟩ => ⟨S_, .i32⟩
  | .hbm, ⟨11, _⟩ => ⟨S65536x8, .i32⟩
  | .hbm, ⟨12, _⟩ => ⟨S65536x8, .i1⟩
  | .hbm, ⟨13, _⟩ => ⟨S_, .i32⟩
  | .hbm, ⟨14, _⟩ => ⟨S65536x8, .i32⟩
  | .hbm, ⟨15, _⟩ => ⟨S65536x8, .i1⟩
  | .hbm, ⟨16, _⟩ => ⟨S_, .i32⟩
  | .hbm, ⟨17, _⟩ => ⟨S_, .i1⟩
  | .hbm, ⟨18, _⟩ => ⟨S65536x8, .i1⟩
  | .hbm, ⟨19, _⟩ => ⟨S65536x8, .i1⟩
  | .hbm, ⟨20, _⟩ => ⟨S65536x8, .i1⟩
  | .hbm, ⟨21, _⟩ => ⟨S65536x8, .i32⟩
  | .hbm, ⟨22, _⟩ => ⟨S65536x8, .i32⟩
  | .hbm, ⟨23, _⟩ => ⟨S65536x8, .i32⟩
  | .hbm, ⟨24, _⟩ => ⟨S8x1024x1024, .bf16⟩
  | .hbm, ⟨25, _⟩ => ⟨S65536x1024, .f32⟩
  | .local _ .vmem, ⟨0, _⟩ => ⟨S512x8, .i32⟩
  | .local _ .vmem, ⟨1, _⟩ => ⟨S512x8, .i32⟩
  | .local _ .vmem, ⟨2, _⟩ => ⟨S8x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | _, _ => ⟨S65536x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S65536x8 : S_.BroadcastsInDim S65536x8 (![] : Fin 0 → Fin S65536x8.rank)
  bitsLt_bf16_f32 : FTy.bits .bf16 < FTy.bits .f32
  iota_S512x1024_d1_w32 : S512x1024.Iotas .tc 32 [1]
  inb_S512x1024_S512x1024_0_0 : ∀ a, (![0, 0] : Fin 2 → Nat) a + S512x1024.size a ≤ S512x1024.size a
  h_S512x1024 : 0 < S512x1024.numel
  inb_S512x8_S512x1_0_0 : ∀ a, (![0, 0] : Fin 2 → Nat) a + S512x1.size a ≤ S512x8.size a
  h_S512x1 : 0 < S512x1.numel
  shapeCasts_S512x1_S512x1 : S512x1.ShapeCasts S512x1
  broadcasts_S512x1_S512x1024 : S512x1.Broadcasts S512x1024
  natLt_1_32 : 1 < 32
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S8x1024x1024_S1x1024x1024_0_0_0 : ∀ a, (![0, 0, 0] : Fin 3 → Nat) a + S1x1024x1024.size a ≤ S8x1024x1024.size a
  h_S1x1024x1024 : 0 < S1x1024x1024.numel
  shapeCasts_S1x1024x1024_S1024x1024 : S1x1024x1024.ShapeCasts S1024x1024
  inb_S512x8_S512x1_0_1 : ∀ a, (![0, 1] : Fin 2 → Nat) a + S512x1.size a ≤ S512x8.size a
  inb_S8x1024x1024_S1x1024x1024_1_0_0 : ∀ a, (![1, 0, 0] : Fin 3 → Nat) a + S1x1024x1024.size a ≤ S8x1024x1024.size a
  inb_S512x8_S512x1_0_2 : ∀ a, (![0, 2] : Fin 2 → Nat) a + S512x1.size a ≤ S512x8.size a
  inb_S8x1024x1024_S1x1024x1024_2_0_0 : ∀ a, (![2, 0, 0] : Fin 3 → Nat) a + S1x1024x1024.size a ≤ S8x1024x1024.size a
  inb_S512x8_S512x1_0_3 : ∀ a, (![0, 3] : Fin 2 → Nat) a + S512x1.size a ≤ S512x8.size a
  inb_S8x1024x1024_S1x1024x1024_3_0_0 : ∀ a, (![3, 0, 0] : Fin 3 → Nat) a + S1x1024x1024.size a ≤ S8x1024x1024.size a
  inb_S512x8_S512x1_0_4 : ∀ a, (![0, 4] : Fin 2 → Nat) a + S512x1.size a ≤ S512x8.size a
  inb_S8x1024x1024_S1x1024x1024_4_0_0 : ∀ a, (![4, 0, 0] : Fin 3 → Nat) a + S1x1024x1024.size a ≤ S8x1024x1024.size a
  inb_S512x8_S512x1_0_5 : ∀ a, (![0, 5] : Fin 2 → Nat) a + S512x1.size a ≤ S512x8.size a
  inb_S8x1024x1024_S1x1024x1024_5_0_0 : ∀ a, (![5, 0, 0] : Fin 3 → Nat) a + S1x1024x1024.size a ≤ S8x1024x1024.size a
  inb_S512x8_S512x1_0_6 : ∀ a, (![0, 6] : Fin 2 → Nat) a + S512x1.size a ≤ S512x8.size a
  inb_S8x1024x1024_S1x1024x1024_6_0_0 : ∀ a, (![6, 0, 0] : Fin 3 → Nat) a + S1x1024x1024.size a ≤ S8x1024x1024.size a
  inb_S512x8_S512x1_0_7 : ∀ a, (![0, 7] : Fin 2 → Nat) a + S512x1.size a ≤ S512x8.size a
  inb_S8x1024x1024_S1x1024x1024_7_0_0 : ∀ a, (![7, 0, 0] : Fin 3 → Nat) a + S1x1024x1024.size a ≤ S8x1024x1024.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S65536x8.size a
  hwx0_0 : ∀ i : grid0.Coords, EltTy.bits .i32 = 32 ∨ (Rect.block (s := S65536x8) S512x8.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x1024.size a ≤ S8x1024x1024.size a
  hwx0_1 : ∀ i : grid0.Coords, EltTy.bits .bf16 = 32 ∨ (Rect.block (s := S8x1024x1024) S8x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S65536x1024.size a
  hwx0_2 : ∀ i : grid0.Coords, EltTy.bits .f32 = 32 ∨ (Rect.block (s := S65536x1024) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x8 : Shape := ⟨2, ![65536, 8]⟩
abbrev S8x1024x1024 : Shape := ⟨3, ![8, 1024, 1024]⟩
abbrev S1x1024x1024 : Shape := ⟨3, ![1, 1024, 1024]⟩
abbrev S1024x1024 : Shape := ⟨2, ![1024, 1024]⟩
abbrev S65536x1 : Shape := ⟨2, ![65536, 1]⟩
abbrev S65536 : Shape := ⟨1, ![65536]⟩
abbrev S_ : Shape := ⟨0, ![]⟩
abbrev S65536x1024 : Shape := ⟨2, ![65536, 1024]⟩

abbrev nBuf : Space → Nat
  | .hbm => 113
  | .vmem => 0
  | .smem => 0
  | _ => 0

abbrev bufTy : (tb : Table) → Fin (tcTables nBuf tb) → BufTy
  | .hbm, ⟨0, _⟩ => ⟨S65536x8, .i32⟩
  | .hbm, ⟨1, _⟩ => ⟨S8x1024x1024, .f32⟩
  | .hbm, ⟨2, _⟩ => ⟨S1x1024x1024, .f32⟩
  | .hbm, ⟨3, _⟩ => ⟨S1024x1024, .f32⟩
  | .hbm, ⟨4, _⟩ => ⟨S65536x1, .i32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x1024, .f32⟩
  | .hbm, ⟨15, _⟩ => ⟨S1x1024x1024, .f32⟩
  | .hbm, ⟨16, _⟩ => ⟨S1024x1024, .f32⟩
  | .hbm, ⟨17, _⟩ => ⟨S65536x1, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x1024, .f32⟩
  | .hbm, ⟨28, _⟩ => ⟨S65536x1024, .f32⟩
  | .hbm, ⟨29, _⟩ => ⟨S1x1024x1024, .f32⟩
  | .hbm, ⟨30, _⟩ => ⟨S1024x1024, .f32⟩
  | .hbm, ⟨31, _⟩ => ⟨S65536x1, .i32⟩
  | .hbm, ⟨32, _⟩ => ⟨S65536, .i32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x1024, .f32⟩
  | .hbm, ⟨42, _⟩ => ⟨S65536x1024, .f32⟩
  | .hbm, ⟨43, _⟩ => ⟨S1x1024x1024, .f32⟩
  | .hbm, ⟨44, _⟩ => ⟨S1024x1024, .f32⟩
  | .hbm, ⟨45, _⟩ => ⟨S65536x1, .i32⟩
  | .hbm, ⟨46, _⟩ => ⟨S65536, .i32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S65536x1, .i32⟩
  | .hbm, ⟨55, _⟩ => ⟨S65536x1024, .f32⟩
  | .hbm, ⟨56, _⟩ => ⟨S65536x1024, .f32⟩
  | .hbm, ⟨57, _⟩ => ⟨S1x1024x1024, .f32⟩
  | .hbm, ⟨58, _⟩ => ⟨S1024x1024, .f32⟩
  | .hbm, ⟨59, _⟩ => ⟨S65536x1, .i32⟩
  | .hbm, ⟨60, _⟩ => ⟨S65536, .i32⟩
  | .hbm, ⟨61, _⟩ => ⟨S_, .i32⟩
  | .hbm, ⟨62, _⟩ => ⟨S65536, .i32⟩
  | .hbm, ⟨63, _⟩ => ⟨S65536, .i1⟩
  | .hbm, ⟨64, _⟩ => ⟨S_, .i32⟩
  | .hbm, ⟨65, _⟩ => ⟨S65536, .i32⟩
  | .hbm, ⟨66, _⟩ => ⟨S65536, .i32⟩
  | .hbm, ⟨67, _⟩ => ⟨S65536, .i32⟩
  | .hbm, ⟨68, _⟩ => ⟨S65536x1, .i32⟩
  | .hbm, ⟨69, _⟩ => ⟨S65536x1024, .f32⟩
  | .hbm, ⟨70, _⟩ => ⟨S65536x1024, .f32⟩
  | .hbm, ⟨71, _⟩ => ⟨S1x1024x1024, .f32⟩
  | .hbm, ⟨72, _⟩ => ⟨S1024x1024, .f32⟩
  | .hbm, ⟨73, _⟩ => ⟨S65536x1, .i32⟩
  | .hbm, ⟨74, _⟩ => ⟨S65536, .i32⟩
  | .hbm, ⟨75, _⟩ => ⟨S_, .i32⟩
  | .hbm, ⟨76, _⟩ => ⟨S65536, .i32⟩
  | .hbm, ⟨77, _⟩ => ⟨S65536, .i1⟩
  | .hbm, ⟨78, _⟩ => ⟨S_, .i32⟩
  | .hbm, ⟨79, _⟩ => ⟨S65536, .i32⟩
  | .hbm, ⟨80, _⟩ => ⟨S65536, .i32⟩
  | .hbm, ⟨81, _⟩ => ⟨S65536, .i32⟩
  | .hbm, ⟨82, _⟩ => ⟨S65536x1, .i32⟩
  | .hbm, ⟨83, _⟩ => ⟨S65536x1024, .f32⟩
  | .hbm, ⟨84, _⟩ => ⟨S65536x1024, .f32⟩
  | .hbm, ⟨85, _⟩ => ⟨S1x1024x1024, .f32⟩
  | .hbm, ⟨86, _⟩ => ⟨S1024x1024, .f32⟩
  | .hbm, ⟨87, _⟩ => ⟨S65536x1, .i32⟩
  | .hbm, ⟨88, _⟩ => ⟨S65536, .i32⟩
  | .hbm, ⟨89, _⟩ => ⟨S_, .i32⟩
  | .hbm, ⟨90, _⟩ => ⟨S65536, .i32⟩
  | .hbm, ⟨91, _⟩ => ⟨S65536, .i1⟩
  | .hbm, ⟨92, _⟩ => ⟨S_, .i32⟩
  | .hbm, ⟨93, _⟩ => ⟨S65536, .i32⟩
  | .hbm, ⟨94, _⟩ => ⟨S65536, .i32⟩
  | .hbm, ⟨95, _⟩ => ⟨S65536, .i32⟩
  | .hbm, ⟨96, _⟩ => ⟨S65536x1, .i32⟩
  | .hbm, ⟨97, _⟩ => ⟨S65536x1024, .f32⟩
  | .hbm, ⟨98, _⟩ => ⟨S65536x1024, .f32⟩
  | .hbm, ⟨99, _⟩ => ⟨S1x1024x1024, .f32⟩
  | .hbm, ⟨100, _⟩ => ⟨S1024x1024, .f32⟩
  | .hbm, ⟨101, _⟩ => ⟨S65536x1, .i32⟩
  | .hbm, ⟨102, _⟩ => ⟨S65536, .i32⟩
  | .hbm, ⟨103, _⟩ => ⟨S_, .i32⟩
  | .hbm, ⟨104, _⟩ => ⟨S65536, .i32⟩
  | .hbm, ⟨105, _⟩ => ⟨S65536, .i1⟩
  | .hbm, ⟨106, _⟩ => ⟨S_, .i32⟩
  | .hbm, ⟨107, _⟩ => ⟨S65536, .i32⟩
  | .hbm, ⟨108, _⟩ => ⟨S65536, .i32⟩
  | .hbm, ⟨109, _⟩ => ⟨S65536, .i32⟩
  | .hbm, ⟨110, _⟩ => ⟨S65536x1, .i32⟩
  | .hbm, ⟨111, _⟩ => ⟨S65536x1024, .f32⟩
  | .hbm, ⟨112, _⟩ => ⟨S65536x1024, .f32⟩
  | _, _ => ⟨S65536x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_3 : Ref sig .tc := ⟨.hbm, 33, rfl⟩
abbrev main_v27 : Ref sig .tc := ⟨.hbm, 34, rfl⟩
abbrev main_v28 : Ref sig .tc := ⟨.hbm, 35, rfl⟩
abbrev main_c_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_5 : Ref sig .tc := ⟨.hbm, 47, rfl⟩
abbrev main_v39 : Ref sig .tc := ⟨.hbm, 48, rfl⟩
abbrev main_v40 : Ref sig .tc := ⟨.hbm, 49, rfl⟩
abbrev main_c_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_7 : Ref sig .tc := ⟨.hbm, 61, rfl⟩
abbrev main_v51 : Ref sig .tc := ⟨.hbm, 62, rfl⟩
abbrev main_v52 : Ref sig .tc := ⟨.hbm, 63, rfl⟩
abbrev main_c_8 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_c_9 : Ref sig .tc := ⟨.hbm, 75, rfl⟩
abbrev main_v63 : Ref sig .tc := ⟨.hbm, 76, rfl⟩
abbrev main_v64 : Ref sig .tc := ⟨.hbm, 77, rfl⟩
abbrev main_c_10 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c_11 : Ref sig .tc := ⟨.hbm, 89, rfl⟩
abbrev main_v75 : Ref sig .tc := ⟨.hbm, 90, rfl⟩
abbrev main_v76 : Ref sig .tc := ⟨.hbm, 91, rfl⟩
abbrev main_c_12 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_c_13 : Ref sig .tc := ⟨.hbm, 103, rfl⟩
abbrev main_v87 : Ref sig .tc := ⟨.hbm, 104, rfl⟩
abbrev main_v88 : Ref sig .tc := ⟨.hbm, 105, rfl⟩
abbrev main_c_14 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩

abbrev nD : Nat := 1
abbrev τ : Topo := Topo.v7x

variable {F : FTy → Type} [FloatOps F]

class Facts₀ : Prop where
  slices_S8x1024x1024_S1x1024x1024_0_0_0 : S8x1024x1024.Slices ![0, 0, 0] S1x1024x1024
  shapeCasts_S1x1024x1024_S1024x1024 : S1x1024x1024.ShapeCasts S1024x1024
  slices_S65536x8_S65536x1_0_0 : S65536x8.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S8x1024x1024_S1x1024x1024_1_0_0 : S8x1024x1024.Slices ![1, 0, 0] S1x1024x1024
  slices_S65536x8_S65536x1_0_1 : S65536x8.Slices ![0, 1] S65536x1
  slices_S8x1024x1024_S1x1024x1024_2_0_0 : S8x1024x1024.Slices ![2, 0, 0] S1x1024x1024
  slices_S65536x8_S65536x1_0_2 : S65536x8.Slices ![0, 2] S65536x1
  slices_S8x1024x1024_S1x1024x1024_3_0_0 : S8x1024x1024.Slices ![3, 0, 0] S1x1024x1024
  slices_S65536x8_S65536x1_0_3 : S65536x8.Slices ![0, 3] S65536x1
  slices_S8x1024x1024_S1x1024x1024_4_0_0 : S8x1024x1024.Slices ![4, 0, 0] S1x1024x1024
  slices_S65536x8_S65536x1_0_4 : S65536x8.Slices ![0, 4] S65536x1
  slices_S8x1024x1024_S1x1024x1024_5_0_0 : S8x1024x1024.Slices ![5, 0, 0] S1x1024x1024
  slices_S65536x8_S65536x1_0_5 : S65536x8.Slices ![0, 5] S65536x1
  slices_S8x1024x1024_S1x1024x1024_6_0_0 : S8x1024x1024.Slices ![6, 0, 0] S1x1024x1024
  slices_S65536x8_S65536x1_0_6 : S65536x8.Slices ![0, 6] S65536x1
  slices_S8x1024x1024_S1x1024x1024_7_0_0 : S8x1024x1024.Slices ![7, 0, 0] S1x1024x1024
  slices_S65536x8_S65536x1_0_7 : S65536x8.Slices ![0, 7] S65536x1
  gather_S1024x1024_S65536x1_S65536x1024_1_0_n_n_0_1_11024_wf : GatherDims.WF S1024x1024 S65536x1 S65536x1024 [1] [0] [] [0] [] 1 ![1, 1024]

variable [Facts₀]

def gather_S1024x1024_S65536x1_S65536x1024_1_0_n_n_0_1_11024 : GatherDims S1024x1024 S65536x1 S65536x1024 where
  offsetDims := [1]
  collapsedSliceDims := [0]
  operandBatchingDims := []
  startIndicesBatchingDims := []
  startIndexMap := [0]
  indexVectorDim := 1
  sliceSizes := ![1, 1024]
  wf := gather_S1024x1024_S65536x1_S65536x1024_1_0_n_n_0_1_11024_wf

class Facts : Prop extends Facts₀ where

variable [Facts]
-- ==== Proof.Body.lean ====
/-
  What one grid point leaves in its output block. The body zeroes the block, then for each of the eight levels l
  writes the one-hot matrix of column l of the block's indices (entry (r, k) is 1 when index (r, l) is k, else 0)
  into a scratch buffer, multiplies it by level l of the table, and adds the product to the block. So the block
  ends as the chain  ((0 + H₀·W₀) + H₁·W₁) + … + H₇·W₇  with H_l the one-hot matrix of column l and W_l level l
  of the table. Every store covers the whole block, so each read-back reads the store before it.
-/
import proofs.«425374_j18786186952924_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The zero block. -/
def zero : FVec F S512x1024 .f32 := broadcast S512x1024 (Scalar.ofBits .f32 0x00000000#32)

/-- The one-hot matrix of a column of indices: entry (r, k) is 1 when the index in row r is k, else 0. -/
def hot (col : Vec F S512x1 .i32) : FVec F S512x1024 .bf16 :=
  truncf .bf16 (sitofp .f32 (extui 32 (cmpi .eq (broadcastTo S512x1024 (col : IVec S512x1 32) broadcasts_S512x1_S512x1024)
    (iota .tc S512x1024 32 [1] iota_S512x1024_d1_w32)) natLt_1_32)) bitsLt_bf16_f32

/-- One level's update: the accumulator plus the one-hot matrix times the level's table. -/
def step (acc : Vec F S512x1024 .f32) (oh : Vec F S512x1024 .bf16) (slab : Vec F S1x1024x1024 .bf16) : FVec F S512x1024 .f32 :=
  addf acc (matmul dot_S512x1024_S1024x1024_S512x1024_1_0_0_1_n_n none oh
    (shapeCast S1024x1024 slab shapeCasts_S1x1024x1024_S1024x1024) (constant S512x1024 .f32 0x00000000#32))

/-- Column 0 of a block of indices. -/
abbrev col0 (x0 : Vec F S512x8 .i32) : Vec F S512x1 .i32 := View.ld x0 (Rect.unit ![0, 0] ![512, 1] inb_S512x8_S512x1_0_0)
/-- Level 0 of the table. -/
abbrev slab0 (x1 : Vec F S8x1024x1024 .bf16) : Vec F S1x1024x1024 .bf16 := View.ld x1 (Rect.unit ![0, 0, 0] ![1, 1024, 1024] inb_S8x1024x1024_S1x1024x1024_0_0_0)
/-- Column 1 of a block of indices. -/
abbrev col1 (x0 : Vec F S512x8 .i32) : Vec F S512x1 .i32 := View.ld x0 (Rect.unit ![0, 1] ![512, 1] inb_S512x8_S512x1_0_1)
/-- Level 1 of the table. -/
abbrev slab1 (x1 : Vec F S8x1024x1024 .bf16) : Vec F S1x1024x1024 .bf16 := View.ld x1 (Rect.unit ![1, 0, 0] ![1, 1024, 1024] inb_S8x1024x1024_S1x1024x1024_1_0_0)
/-- Column 2 of a block of indices. -/
abbrev col2 (x0 : Vec F S512x8 .i32) : Vec F S512x1 .i32 := View.ld x0 (Rect.unit ![0, 2] ![512, 1] inb_S512x8_S512x1_0_2)
/-- Level 2 of the table. -/
abbrev slab2 (x1 : Vec F S8x1024x1024 .bf16) : Vec F S1x1024x1024 .bf16 := View.ld x1 (Rect.unit ![2, 0, 0] ![1, 1024, 1024] inb_S8x1024x1024_S1x1024x1024_2_0_0)
/-- Column 3 of a block of indices. -/
abbrev col3 (x0 : Vec F S512x8 .i32) : Vec F S512x1 .i32 := View.ld x0 (Rect.unit ![0, 3] ![512, 1] inb_S512x8_S512x1_0_3)
/-- Level 3 of the table. -/
abbrev slab3 (x1 : Vec F S8x1024x1024 .bf16) : Vec F S1x1024x1024 .bf16 := View.ld x1 (Rect.unit ![3, 0, 0] ![1, 1024, 1024] inb_S8x1024x1024_S1x1024x1024_3_0_0)
/-- Column 4 of a block of indices. -/
abbrev col4 (x0 : Vec F S512x8 .i32) : Vec F S512x1 .i32 := View.ld x0 (Rect.unit ![0, 4] ![512, 1] inb_S512x8_S512x1_0_4)
/-- Level 4 of the table. -/
abbrev slab4 (x1 : Vec F S8x1024x1024 .bf16) : Vec F S1x1024x1024 .bf16 := View.ld x1 (Rect.unit ![4, 0, 0] ![1, 1024, 1024] inb_S8x1024x1024_S1x1024x1024_4_0_0)
/-- Column 5 of a block of indices. -/
abbrev col5 (x0 : Vec F S512x8 .i32) : Vec F S512x1 .i32 := View.ld x0 (Rect.unit ![0, 5] ![512, 1] inb_S512x8_S512x1_0_5)
/-- Level 5 of the table. -/
abbrev slab5 (x1 : Vec F S8x1024x1024 .bf16) : Vec F S1x1024x1024 .bf16 := View.ld x1 (Rect.unit ![5, 0, 0] ![1, 1024, 1024] inb_S8x1024x1024_S1x1024x1024_5_0_0)
/-- Column 6 of a block of indices. -/
abbrev col6 (x0 : Vec F S512x8 .i32) : Vec F S512x1 .i32 := View.ld x0 (Rect.unit ![0, 6] ![512, 1] inb_S512x8_S512x1_0_6)
/-- Level 6 of the table. -/
abbrev slab6 (x1 : Vec F S8x1024x1024 .bf16) : Vec F S1x1024x1024 .bf16 := View.ld x1 (Rect.unit ![6, 0, 0] ![1, 1024, 1024] inb_S8x1024x1024_S1x1024x1024_6_0_0)
/-- Column 7 of a block of indices. -/
abbrev col7 (x0 : Vec F S512x8 .i32) : Vec F S512x1 .i32 := View.ld x0 (Rect.unit ![0, 7] ![512, 1] inb_S512x8_S512x1_0_7)
/-- Level 7 of the table. -/
abbrev slab7 (x1 : Vec F S8x1024x1024 .bf16) : Vec F S1x1024x1024 .bf16 := View.ld x1 (Rect.unit ![7, 0, 0] ![1, 1024, 1024] inb_S8x1024x1024_S1x1024x1024_7_0_0)

/-- The chain of the eight level updates from the zero block. -/
def chain (x0 : Vec F S512x8 .i32) (x1 : Vec F S8x1024x1024 .bf16) : FVec F S512x1024 .f32 :=
  step (step (step (step (step (step (step (step (zero) (hot (col0 x0)) (slab0 x1)) (hot (col1 x0)) (slab1 x1)) (hot (col2 x0)) (slab2 x1)) (hot (col3 x0)) (slab3 x1)) (hot (col4 x0)) (slab4 x1)) (hot (col5 x0)) (slab5 x1)) (hot (col6 x0)) (slab6 x1)) (hot (col7 x0)) (slab7 x1)

/-- The block one grid point leaves is the chain over its block of indices and the table. -/
theorem out_eq_chain (c : Dev nD) (i : grid0.Coords) (arg1 : Memref sig .tc .vmem S512x8 .i32) (harg1 : arg1.IsWhole) (arg2 : Memref sig .tc .vmem S8x1024x1024 .bf16) (harg2 : arg2.IsWhole) (arg3 : Memref sig .tc .vmem S512x1024 .f32) (harg3 : arg3.IsWhole) (arg4 : Memref sig .tc .vmem S512x1024 .bf16) (harg4 : arg4.IsWhole)
    (x0 : Vec F S512x8 .i32) (x1 : Vec F S8x1024x1024 .bf16) :
    out0_A_2 c i arg1 harg1 arg2 harg2 arg3 harg3 arg4 harg4 x0 x1 = chain x0 x1 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_cons_unit_zero (S := S512x1024) hz]
  simp only [View.readCov_cons_toLoadRect, View.readAt_eq_ld, harg1.read_unread, harg2.read_unread]
  unfold k0_pay1 k0_pay2 k0_pay3 k0_pay4 k0_pay5 k0_pay6 k0_pay7 k0_pay8 k0_pay9 k0_pay10 k0_pay11 k0_pay12 k0_pay13
    k0_pay14 k0_pay15 k0_pay16 k0_pay17 k0_pay18 k0_pay19 k0_pay20 chain step hot zero
  simp only [shapeCast_self]

end Cert.KernelIdeal.Body

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.WrapIndex.lean ====
/-
  Two ways of bringing a signed 32-bit index into the range of a table of 1024 rows, and that they agree on the
  indices -1024 … 1023: the floored remainder by 1024, computed from the truncated remainder (the remainder takes the
  dividend's sign; when it is nonzero and its sign differs from the divisor's, the divisor is added), and the wrap of a
  negative index by one table length (a negative index gets 1024 added, any other is kept). On that range both give the
  number in 0 … 1023 congruent to the index modulo 1024.
-/
import Idealize.ShloMosaic.PureOps

namespace Cert.WrapIndex

open Idealize.ShloMosaic

/-- The floored remainder by 1024, from the truncated one. -/
def pymod (x : BitVec 32) : BitVec 32 :=
  Scalar.select
    (IntOp.andi
      (IntOp.cmpi .ne (IntOp.cmpi .slt (IntOp.remsi .host x 1024#32) 0#32) (IntOp.cmpi .slt 1024#32 0#32))
      (IntOp.cmpi .ne (IntOp.remsi .host x 1024#32) 0#32))
    (IntOp.addi (IntOp.remsi .host x 1024#32) 1024#32)
    (IntOp.remsi .host x 1024#32)

/-- A negative index wrapped by one table length. -/
def wrap (x : BitVec 32) : BitVec 32 :=
  Scalar.select (IntOp.cmpi .slt x 0#32) (IntOp.addi x 1024#32) x

/-- The divisor 1024 is neither zero nor minus one, so the remainder by it is the truncated remainder. -/
private theorem remsi_1024 (x : BitVec 32) : IntOp.remsi .host x 1024#32 = x.srem 1024#32 := by
  unfold IntOp.remsi
  rw [if_neg]
  rintro (h | ⟨-, h⟩) <;> exact absurd h (by decide)

/-- A word strictly between -1024 and 1024 is its own truncated remainder by 1024: the truncated remainder of a
    number smaller in size than the divisor is the number, whichever its sign. -/
private theorem srem_1024_self (x : BitVec 32) (hlo : -1024 < x.toInt) (hhi : x.toInt < 1024) :
    x.srem 1024#32 = x := by
  apply BitVec.eq_of_toInt_eq
  rw [BitVec.toInt_srem, show (1024#32 : BitVec 32).toInt = 1024 from by decide]
  by_cases h : 0 ≤ x.toInt
  · exact Int.tmod_eq_of_lt h hhi
  · have hx : x.toInt = -(-x.toInt) := by omega
    rw [hx, Int.neg_tmod, Int.tmod_eq_of_lt (by omega) (by omega)]

/-- The signed comparison with zero of a negative word holds. -/
private theorem slt_zero_of_neg (x : BitVec 32) (h : x.toInt < 0) : IntOp.cmpi .slt x 0#32 = 1#1 := by
  have h0 : (0#32 : BitVec 32).toInt = 0 := by decide
  simp only [IntOp.cmpi, BitVec.slt_eq_decide, h0, h, decide_true, BitVec.ofBool_true]
  rfl

/-- The signed comparison with zero of a nonnegative word fails. -/
private theorem slt_zero_of_nonneg (x : BitVec 32) (h : ¬ x.toInt < 0) : IntOp.cmpi .slt x 0#32 = 0#1 := by
  have h0 : (0#32 : BitVec 32).toInt = 0 := by decide
  simp only [IntOp.cmpi, BitVec.slt_eq_decide, h0, h, decide_false, BitVec.ofBool_false]
  rfl

/-- A negative word is not the zero word. -/
private theorem ne_zero_of_neg (x : BitVec 32) (h : x.toInt < 0) : IntOp.cmpi .ne x 0#32 = 1#1 := by
  have hne : x ≠ 0#32 := by
    intro he
    rw [he] at h
    exact absurd h (by decide)
  simp only [IntOp.cmpi, bne_iff_ne, ne_eq, hne, not_false_eq_true, BitVec.ofBool_true, bne, beq_eq_false_iff_ne.mpr hne, Bool.not_false]
  rfl

/-- On -1024 … 1023 the floored remainder is the wrap. -/
theorem pymod_eq_wrap (x : BitVec 32) (hlo : -1024 ≤ x.toInt) (hhi : x.toInt < 1024) : pymod x = wrap x := by
  unfold pymod wrap
  rw [remsi_1024]
  by_cases hm : x.toInt = -1024
  · -- the one index whose remainder is zero: both sides are the zero word
    have hx : x = BitVec.ofInt 32 (-1024) := BitVec.eq_of_toInt_eq (by rw [hm]; decide)
    subst hx
    decide
  · rw [srem_1024_self x (by omega) hhi]
    by_cases hneg : x.toInt < 0
    · -- a negative remainder, nonzero, of sign unlike the divisor's: 1024 is added on both sides
      rw [slt_zero_of_neg x hneg, ne_zero_of_neg x hneg]
      have hc : IntOp.andi (IntOp.cmpi .ne 1#1 (IntOp.cmpi .slt 1024#32 0#32)) 1#1 = 1#1 := by decide
      rw [hc]
    · -- a nonnegative remainder has the divisor's sign: the index is kept on both sides
      rw [slt_zero_of_nonneg x hneg]
      have hc : IntOp.cmpi .ne 0#1 (IntOp.cmpi .slt 1024#32 0#32) = 0#1 := by decide
      rw [hc]
      have hz : IntOp.andi 0#1 (IntOp.cmpi .ne x 0#32) = 0#1 := by
        unfold IntOp.andi; exact BitVec.zero_and
      rw [hz]

/-- On -1024 … 1023 the wrapped index is a row number of the table. -/
theorem wrap_lt (x : BitVec 32) (hlo : -1024 ≤ x.toInt) (hhi : x.toInt < 1024) : (wrap x).toNat < 1024 := by
  unfold wrap
  have hc := BitVec.toInt_eq_toNat_cond x
  have hl := x.isLt
  by_cases hneg : x.toInt < 0
  · rw [slt_zero_of_neg x hneg]
    simp only [Scalar.select]
    rw [if_pos (show (1#1 : BitVec 1) = 1 from rfl)]
    simp only [IntOp.addi, BitVec.toNat_add, BitVec.toNat_ofNat]
    split at hc <;> omega
  · rw [slt_zero_of_nonneg x hneg]
    simp only [Scalar.select, show ¬ ((0#1 : BitVec 1) = 1) from by decide, if_false]
    split at hc <;> omega

/-- The table row a 32-bit index names: its value, reduced below 1024. -/
def rowOf (v : BitVec 32) : Fin 1024 := ⟨v.toNat % 1024, Nat.mod_lt _ (by decide)⟩

end Cert.WrapIndex
-- ==== Proof.BodyIdeal.lean ====
/-
  The chain of level updates read at one entry, over the extended reals. Row r of a one-hot matrix has a single 1,
  in the column its index names, so its product with a level of the table picks that level's row: for an index v
  below 1024,  ∑ₖ [v = k] · W(k, q) = W(v, q)  (0 · w = 0 and 1 · w = w hold for every extended real w, so no
  finiteness is used). Entry (p, q) of the block is therefore  0 + W₀(v₀, q) + … + W₇(v₇, q)  with v_l the index
  in row p, column l.
-/
import proofs.«425374_j18786186952924_3_alg».proof.Proof.Body
import proofs.«425374_j18786186952924_3_alg».proof.Proof.LibPlainDot
import proofs.«425374_j18786186952924_3_alg».proof.Proof.WrapIndex
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.WrapIndex

/-- The product's dimension numbers are the plain rows-by-columns ones. -/
theorem dot_eq_plain : dot_S512x1024_S1024x1024_S512x1024_1_0_0_1_n_n = DotDims.plain 512 1024 1024 := rfl

/-- An entry of the one-hot matrix: 1 when the row's index is the column number, else 0. -/
theorem hot_apply (col : Vec Ideal S512x1 .i32) (p : Fin 512) (k : Fin 1024) :
    hot (F := Ideal) col (ix2 p k) = if (col (ix2 p (0 : Fin 1)) : BitVec 32) = BitVec.ofNat 32 k.val then (1 : EReal) else 0 := by
  unfold hot
  show FloatOps.truncf (F := Ideal) .bf16 _ (FloatOps.sitofp (F := Ideal) .f32
    ((IntOp.cmpi .eq (broadcastTo S512x1024 (col : IVec S512x1 32) broadcasts_S512x1_S512x1024 (ix2 p k))
      (iota .tc S512x1024 32 [1] iota_S512x1024_d1_w32 (ix2 p k))).setWidth 32)) = _
  rw [broadcastTo_apply (col : IVec S512x1 32) broadcasts_S512x1_S512x1024 (ix2 p k) (ix2 p (0 : Fin 1))
      (fun a => match a with
        | ⟨0, _⟩ => by show p.val = if (512 : Nat) = 1 then 0 else p.val; rw [if_neg (by decide)]
        | ⟨1, _⟩ => by show (0 : Nat) = if (1 : Nat) = 1 then 0 else k.val; rw [if_pos rfl]),
    iota_single_apply, Ideal.truncf_def]
  show ((((IntOp.cmpi .eq (col (ix2 p (0 : Fin 1)) : BitVec 32) (BitVec.ofNat 32 k.val)).setWidth 32).toInt : ℝ) : EReal) = _
  by_cases h : (col (ix2 p (0 : Fin 1)) : BitVec 32) = BitVec.ofNat 32 k.val
  · rw [if_pos h, h]
    have : ((IntOp.cmpi .eq (BitVec.ofNat 32 k.val) (BitVec.ofNat 32 k.val)).setWidth 32).toInt = 1 := by
      simp [IntOp.cmpi]
    rw [this]; norm_num
  · rw [if_neg h]
    have hb : ((col (ix2 p (0 : Fin 1)) : BitVec 32) == BitVec.ofNat 32 k.val) = false := by
      simpa using h
    have : ((IntOp.cmpi .eq (col (ix2 p (0 : Fin 1)) : BitVec 32) (BitVec.ofNat 32 k.val)).setWidth 32).toInt = 0 := by
      simp [IntOp.cmpi, hb]
    rw [this]; norm_num

/-- A one-hot row times a column of table entries is the entry the index names. -/
theorem sum_hot (v : BitVec 32) (hv : v.toNat < 1024) (B : Fin 1024 → EReal) :
    ∑ k : Fin 1024, (if v = BitVec.ofNat 32 k.val then (1 : EReal) else 0) * B k = B (rowOf v) := by
  have hrow : ∀ k : Fin 1024, (v = BitVec.ofNat 32 k.val) ↔ k = rowOf v := by
    intro k
    constructor
    · intro h
      apply Fin.ext
      show k.val = v.toNat % 1024
      rw [h, BitVec.toNat_ofNat]
      have := k.isLt
      omega
    · intro h
      rw [h]
      apply BitVec.eq_of_toNat_eq
      rw [BitVec.toNat_ofNat]
      show v.toNat = (v.toNat % 1024) % 2 ^ 32
      omega
  rw [Finset.sum_eq_single (rowOf v)]
  · rw [if_pos ((hrow _).mpr rfl), one_mul]
  · intro k _ hk
    rw [if_neg (fun h => hk ((hrow k).mp h)), zero_mul]
  · intro h; exact absurd (Finset.mem_univ _) h

/-- One level's update at an entry: the accumulator's entry plus the one-hot row times the level's column. -/
theorem step_apply (acc : Vec Ideal S512x1024 .f32) (oh : Vec Ideal S512x1024 .bf16) (slab : Vec Ideal S1x1024x1024 .bf16)
    (p : Fin 512) (q : Fin 1024) :
    step (F := Ideal) acc oh slab (ix2 p q)
      = acc (ix2 p q) + ∑ k : Fin 1024, oh (ix2 p k) * slab (ix3 (0 : Fin 1) k q) := by
  unfold step
  show FloatOps.addf (F := Ideal) (acc (ix2 p q)) _ = _
  rw [Ideal.addf_def, dot_eq_plain]
  congr 1
  refine (Cert.LibPlainDot.matmul_plain_apply 512 1024 1024 none oh
    (shapeCast S1024x1024 slab shapeCasts_S1x1024x1024_S1024x1024) p q).trans ?_
  refine Finset.sum_congr rfl fun k _ => ?_
  congr 1
  rw [shapeCast_dropUnit_apply]
  congr 1
  funext a
  match a with
  | ⟨0, _⟩ => rfl
  | ⟨1, _⟩ => rfl
  | ⟨2, _⟩ => rfl

end Cert.KernelIdeal.Body

end
-- ==== Proof.ChainEntry.lean ====
/-
  Entry (p, q) of the block one grid point leaves, over the extended reals: the chain of level updates read at an
  entry. Level l contributes the one-hot row of index (p, l) times column q of level l of the table, which is the
  table's entry (l, v, q) at the row v that index names, provided v is below 1024. The zero block contributes 0.
-/
import proofs.«425374_j18786186952924_3_alg».proof.Proof.BodyIdeal

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.WrapIndex

/-- Column o of a block of indices, read in row p: the block's entry (p, o). -/
theorem ld_col (x0 : Vec Ideal S512x8 .i32) (o : Nat) (ho : o < 8) (inb) (p : Fin 512) :
    View.ld x0 (Rect.unit (s := S512x8) ![0, o] ![512, 1] inb) (ix2 p (0 : Fin 1)) = x0 (ix2 p (⟨o, ho⟩ : Fin 8)) := by
  show x0 _ = x0 _
  congr 1
  funext a
  apply Fin.ext
  match a with
  | ⟨0, _⟩ => show 0 + 1 * p.val = p.val; omega
  | ⟨1, _⟩ => show o + 1 * (0 : Fin 1).val = o; simp

/-- Level o of the table, read at (0, k, q): the table's entry (o, k, q). -/
theorem ld_slab (x1 : Vec Ideal S8x1024x1024 .bf16) (o : Nat) (ho : o < 8) (inb) (k q : Fin 1024) :
    View.ld x1 (Rect.unit (s := S8x1024x1024) ![o, 0, 0] ![1, 1024, 1024] inb) (ix3 (0 : Fin 1) k q)
      = x1 (ix3 (⟨o, ho⟩ : Fin 8) k q) := by
  show x1 _ = x1 _
  congr 1
  funext a
  apply Fin.ext
  match a with
  | ⟨0, _⟩ => show o + 1 * (0 : Fin 1).val = o; simp
  | ⟨1, _⟩ => show 0 + 1 * k.val = k.val; omega
  | ⟨2, _⟩ => show 0 + 1 * q.val = q.val; omega

/-- One level's contribution at entry (p, q): the one-hot row of index (p, o) against column q of level o is the
    table's entry at the row the index names. -/
theorem level_sum (x0 : Vec Ideal S512x8 .i32) (x1 : Vec Ideal S8x1024x1024 .bf16) (o : Nat) (ho : o < 8) (inb0) (inb1)
    (p : Fin 512) (q : Fin 1024) (hv : (x0 (ix2 p (⟨o, ho⟩ : Fin 8)) : BitVec 32).toNat < 1024) :
    ∑ k : Fin 1024, hot (F := Ideal) (View.ld x0 (Rect.unit (s := S512x8) ![0, o] ![512, 1] inb0)) (ix2 p k)
        * View.ld x1 (Rect.unit (s := S8x1024x1024) ![o, 0, 0] ![1, 1024, 1024] inb1) (ix3 (0 : Fin 1) k q)
      = x1 (ix3 (⟨o, ho⟩ : Fin 8) (rowOf (x0 (ix2 p (⟨o, ho⟩ : Fin 8)))) q) := by
  have e : ∀ k : Fin 1024,
      hot (F := Ideal) (View.ld x0 (Rect.unit (s := S512x8) ![0, o] ![512, 1] inb0)) (ix2 p k)
        * View.ld x1 (Rect.unit (s := S8x1024x1024) ![o, 0, 0] ![1, 1024, 1024] inb1) (ix3 (0 : Fin 1) k q)
      = (if (x0 (ix2 p (⟨o, ho⟩ : Fin 8)) : BitVec 32) = BitVec.ofNat 32 k.val then (1 : EReal) else 0)
        * x1 (ix3 (⟨o, ho⟩ : Fin 8) k q) := by
    intro k
    rw [hot_apply, ld_col x0 o ho inb0 p, ld_slab x1 o ho inb1 k q]
  rw [Finset.sum_congr rfl fun k _ => e k]
  exact sum_hot _ hv fun k => x1 (ix3 (⟨o, ho⟩ : Fin 8) k q)

/-- The zero block's entries are 0. -/
theorem zero_apply (i : S512x1024.Idx) : zero (F := Ideal) i = 0 := by
  show Ideal.ofBits .f32 0x00000000#32 = 0
  exact Ideal.ofBits_zero_f32

/-- Entry (p, q) of the chain: 0 plus, level by level, the table's entry at the row the level's index names. -/
theorem chain_apply (x0 : Vec Ideal S512x8 .i32) (x1 : Vec Ideal S8x1024x1024 .bf16) (p : Fin 512) (q : Fin 1024)
    (hv : ∀ l : Fin 8, (x0 (ix2 p l) : BitVec 32).toNat < 1024) :
    chain (F := Ideal) x0 x1 (ix2 p q)
      = 0 + x1 (ix3 (0 : Fin 8) (rowOf (x0 (ix2 p (0 : Fin 8)))) q) + x1 (ix3 (1 : Fin 8) (rowOf (x0 (ix2 p (1 : Fin 8)))) q)
          + x1 (ix3 (2 : Fin 8) (rowOf (x0 (ix2 p (2 : Fin 8)))) q) + x1 (ix3 (3 : Fin 8) (rowOf (x0 (ix2 p (3 : Fin 8)))) q)
          + x1 (ix3 (4 : Fin 8) (rowOf (x0 (ix2 p (4 : Fin 8)))) q) + x1 (ix3 (5 : Fin 8) (rowOf (x0 (ix2 p (5 : Fin 8)))) q)
          + x1 (ix3 (6 : Fin 8) (rowOf (x0 (ix2 p (6 : Fin 8)))) q) + x1 (ix3 (7 : Fin 8) (rowOf (x0 (ix2 p (7 : Fin 8)))) q) := by
  unfold chain
  simp only [step_apply, zero_apply]
  rw [level_sum x0 x1 0 (by decide) _ _ p q (hv 0), level_sum x0 x1 1 (by decide) _ _ p q (hv 1),
    level_sum x0 x1 2 (by decide) _ _ p q (hv 2), level_sum x0 x1 3 (by decide) _ _ p q (hv 3),
    level_sum x0 x1 4 (by decide) _ _ p q (hv 4), level_sum x0 x1 5 (by decide) _ _ p q (hv 5),
    level_sum x0 x1 6 (by decide) _ _ p q (hv 6), level_sum x0 x1 7 (by decide) _ _ p q (hv 7)]
  rfl

end Cert.KernelIdeal.Body

end
-- ==== Proof.Spec.lean ====
/-
  The specification: what both programs compute. Out of a table W of 8 levels of 1024 rows of 1024 entries and an
  array X of 65536 × 8 indices, entry (n, d) of the result is the sum over the eight levels l of W(l, r_l, d), where
  r_l is index X(n, l) wrapped into the table: a negative index has one table length, 1024, added. The sum is taken
  level 0 first.
-/
import proofs.«425374_j18786186952924_3_alg».proof.Proof.WrapIndex
import Idealize.ShloMosaic.PureOps.Ideal
import Idealize.ShloMosaic.Lib.ValueIdx

noncomputable section

namespace Cert.Spec

open Idealize.ShloMosaic Idealize.ShloMosaic.ValueIdx Cert.WrapIndex

/-- Level l's term at entry (n, d): the table's entry at the row the wrapped index names. -/
def term (x : IVec ⟨2, ![65536, 8]⟩ 32) (w : (⟨3, ![8, 1024, 1024]⟩ : Shape).Idx → EReal) (n : Fin 65536) (d : Fin 1024)
    (l : Fin 8) : EReal :=
  w (ix3 l (rowOf (wrap (x (ix2 n l)))) d)

/-- The result array: at each entry the eight levels' terms, summed level 0 first. -/
def G (x : IVec ⟨2, ![65536, 8]⟩ 32) (w : (⟨3, ![8, 1024, 1024]⟩ : Shape).Idx → EReal) :
    (⟨2, ![65536, 1024]⟩ : Shape).Idx → EReal := fun i =>
  term x w (i 0) (i 1) 0 + term x w (i 0) (i 1) 1 + term x w (i 0) (i 1) 2 + term x w (i 0) (i 1) 3
    + term x w (i 0) (i 1) 4 + term x w (i 0) (i 1) 5 + term x w (i 0) (i 1) 6 + term x w (i 0) (i 1) 7

end Cert.Spec

end
-- ==== Proof.Region.lean ====
/-
  The idealized kernel's result array. The region finds the indices already reduced by the floored remainder by
  1024 and the table unchanged (a change of float format is the identity on extended reals). Grid point t stages rows
  512·t … 512·t + 511 of the indices, the whole table, and rows 512·t … 512·t + 511 of the output; its body leaves the
  chain of level updates in the output block, and every point writes its block back. For indices in -1024 … 1023 the
  floored remainder is the wrapped index, a row number of the table, so entry (p, q) of block t is entry
  (512·t + p, q) of the specification. The 128 blocks tile the array, so the array ends as the specification.
-/
import proofs.«425374_j18786186952924_3_alg».proof.Proof.Gen.KernelIdeal.Value
import proofs.«425374_j18786186952924_3_alg».proof.Proof.ChainEntry
import proofs.«425374_j18786186952924_3_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Region

open Cert.KernelIdeal Cert.KernelIdeal.Gen Cert.KernelIdeal.Body Cert.WrapIndex Cert.Spec

variable (m : (ℓ : Loc nD τ sig) → Buf (Elt Ideal) ℓ) (ρ : Dev nD → PrngReg)

/-- The indices as the region finds them: each the floored remainder by 1024 of the argument's. -/
theorem V_idx (c : Dev nD) :
    (V m c main_v0 : IVec S65536x8 32) = fun i => pymod (m ((c : Thread nD τ).loc main_arg0) i) := by
  dsimp only [V]
  simp only [hostOps0, hostOps0_1, hostOps0_2, List.flatten_cons, List.flatten_nil, List.append_nil, List.cons_append,
    List.nil_append]
  after_results_simp
  funext i
  rfl

/-- The table as the region finds it: the argument's, entry by entry. -/
theorem V_tbl (c : Dev nD) :
    (V m c main_v1 : S8x1024x1024.Idx → EReal) = m ((c : Thread nD τ).loc main_arg1) := by
  dsimp only [V]
  simp only [hostOps0, hostOps0_1, hostOps0_2, List.flatten_cons, List.flatten_nil, List.append_nil, List.cons_append,
    List.nil_append]
  after_results
  funext i
  rfl

/-- Where the three windows' blocks sit, decided over the 128 grid points: the indices' and the output's blocks are
    block row t, the table's block is the whole table. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem N_eq : cfg0.N = 128 := N_0

/-- The block of indices point t stages, at its literal type. -/
abbrev xblk (c : Dev nD) (t : Fin cfg0.N) : Vec Ideal S512x8 .i32 := iblk m c 0 t
/-- The block of the table point t stages (the whole table), at its literal type. -/
abbrev wblk (c : Dev nD) (t : Fin cfg0.N) : Vec Ideal S8x1024x1024 .bf16 := iblk m c 1 t

/-- Row 512·t + p of the array, for p a row of block t. -/
def rowAt (t : Fin cfg0.N) (p : Fin 512) : Fin 65536 :=
  ⟨t.val * 512 + p.val, by have h : t.val < 128 := Nat.lt_of_lt_of_eq t.isLt N_eq; have := p.isLt; omega⟩

/-- Entry (p, l) of point t's block of indices is the floored remainder of the argument's index (512·t + p, l). -/
theorem xblk_apply (c : Dev nD) (t : Fin cfg0.N) (p : Fin 512) (l : Fin 8) :
    xblk m c t (ix2 p l) = pymod (m ((c : Thread nD τ).loc main_arg0) (ix2 (rowAt t p) l)) := by
  obtain ⟨e0, e1, -⟩ := idx_facts t
  unfold xblk iblk
  rw [View.read_apply]
  simp only [cast_eq]
  refine (congrFun (V_idx m c) (((cfg0.win 0).blk t).view.emb (ix2 p l))).trans ?_
  congr 2
  funext a
  apply Fin.ext
  match a with
  | ⟨0, _⟩ => show win0_0.index t (0 : Fin 2) * 512 + 1 * p.val = t.val * 512 + p.val; rw [e0]; omega
  | ⟨1, _⟩ => show win0_0.index t (1 : Fin 2) * 8 + 1 * l.val = l.val; rw [e1]; omega

/-- Point t's block of the table is the argument table. -/
theorem wblk_apply (c : Dev nD) (t : Fin cfg0.N) (i : S8x1024x1024.Idx) :
    wblk m c t i = m ((c : Thread nD τ).loc main_arg1) i := by
  obtain ⟨-, -, e0, e1, e2, -⟩ := idx_facts t
  unfold wblk iblk
  rw [View.read_apply]
  simp only [cast_eq]
  refine (congrFun (V_tbl m c) (((cfg0.win 1).blk t).view.emb i)).trans ?_
  congr 1
  funext a
  apply Fin.ext
  match a with
  | ⟨0, _⟩ => show win0_1.index t (0 : Fin 3) * 8 + 1 * (i 0).val = (i 0).val; rw [e0]; omega
  | ⟨1, _⟩ => show win0_1.index t (1 : Fin 3) * 1024 + 1 * (i 1).val = (i 1).val; rw [e1]; omega
  | ⟨2, _⟩ => show win0_1.index t (2 : Fin 3) * 1024 + 1 * (i 2).val = (i 2).val; rw [e2]; omega

/-- The indices are in range: each argument index, read signed, lies in -1024 … 1023. -/
def InRange (c : Dev nD) : Prop :=
  ∀ (n : Fin 65536) (l : Fin 8), -1024 ≤ (m ((c : Thread nD τ).loc main_arg0) (ix2 n l) : BitVec 32).toInt
    ∧ (m ((c : Thread nD τ).loc main_arg0) (ix2 n l) : BitVec 32).toInt < 1024

/-- WHAT POINT t WRITES BACK is block t of the specification of the argument arrays. -/
theorem flushed_eq (c : Dev nD) (hr : InRange m c) (t : Fin cfg0.N) :
    (dats m 0 c).flushed 2 t
      = ((cfg0.win 2).blk t).view.read (Elt Ideal) (G (m ((c : Thread nD τ).loc main_arg0)) (m ((c : Thread nD τ).loc main_arg1))) := by
  rw [Cert.KernelIdeal.Value.flushed2_A, out_eq_chain]
  obtain ⟨-, -, -, -, -, e0, e1⟩ := idx_facts t
  funext j
  obtain ⟨p, q, rfl⟩ : ∃ (p : Fin 512) (q : Fin 1024), j = ix2 p q := ⟨j 0, j 1, eq_ix2 j⟩
  have hemb : ((cfg0.win 2).blk t).view.emb (ix2 p q) = ix2 (rowAt t p) q := by
    funext a
    apply Fin.ext
    match a with
    | ⟨0, _⟩ => show win0_2.index t (0 : Fin 2) * 512 + 1 * p.val = t.val * 512 + p.val; rw [e0]; omega
    | ⟨1, _⟩ => show win0_2.index t (1 : Fin 2) * 1024 + 1 * q.val = q.val; rw [e1]; omega
  show chain (xblk m c t) (wblk m c t) (ix2 p q) = G _ _ (((cfg0.win 2).blk t).view.emb (ix2 p q))
  rw [hemb]
  have hx : ∀ l : Fin 8, xblk m c t (ix2 p l) = wrap (m ((c : Thread nD τ).loc main_arg0) (ix2 (rowAt t p) l)) := fun l => by
    rw [xblk_apply, pymod_eq_wrap _ (hr _ l).1 (hr _ l).2]
  have hv : ∀ l : Fin 8, (xblk m c t (ix2 p l) : BitVec 32).toNat < 1024 := fun l => by
    rw [hx l]; exact wrap_lt _ (hr _ l).1 (hr _ l).2
  rw [chain_apply (xblk m c t) (wblk m c t) p q hv]
  simp only [wblk_apply, hx, zero_add]
  rfl

/-- Every entry of the array lies in the block of the point its row falls in. -/
theorem cover (i : S65536x1024.Idx) : ∃ t : Fin cfg0.N, (cfg0.win 2).flush t = true ∧ i ∈ ((cfg0.win 2).blk t).view.set := by
  have hi0 : (i 0).val < 65536 := (i 0).isLt
  have hi1 : (i 1).val < 1024 := (i 1).isLt
  let t : Fin cfg0.N := ⟨(i 0).val / 512, by rw [N_eq]; omega⟩
  obtain ⟨-, -, -, -, -, e0, e1⟩ := idx_facts t
  refine ⟨t, flush0_2 t, ?_⟩
  show i ∈ ((View.whole main_v2).slice (win0_2.rect t)).set
  rw [View.set_slice_whole, Rect.mem_set_unit]
  intro a
  have ht : t.val = (i 0).val / 512 := rfl
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 1024 ≤ (i 1).val ∧ (i 1).val < win0_2.index t (1 : Fin 2) * 1024 + 1024
    rw [e1]; omega

/-- THE ARRAY after the run is the specification of the argument arrays. -/
theorem final (c : Dev nD) (hr : InRange m c) :
    (dats m 0 c).arrAt 2 cfg0.N = G (m ((c : Thread nD τ).loc main_arg0)) (m ((c : Thread nD τ).loc main_arg1)) :=
  (dats m 0 c).arrAt_eq_of_cover 2 _ (fun t _ => flushed_eq m c hr t) cover

/-- The run, read: the result array at the specification, the arguments unchanged. -/
theorem run (hr : ∀ c : Dev nD, InRange m c) :
    θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hr c)), (h c).2⟩)
    (Cert.KernelIdeal.Value.run_blocks m ρ)

end Cert.KernelIdeal.Region

end
-- ==== Proof.LibGatherRows.lean ====
/-
  Rows of a table gathered by a column of start indices, read at one entry. For a table of K rows and D columns and
  N start indices kept as an N × 1 column, with the table's row axis collapsed and start-indexed, its column axis the
  result's offset axis, no batching axes and the index vector on axis 1 (what indexing a matrix by a vector of row
  numbers lowers to), entry (n, j) of the result is the table's entry (r, j), where r is start index n read as a signed
  integer and clamped into 0 … K - 1.
-/
import Idealize.ShloMosaic.Lib.ValueIdx

namespace Cert.LibGatherRows

open Idealize.ShloMosaic Idealize.ShloMosaic.ValueIdx

/-- The row gather at entry (n, j): the table at the clamped start index of position n, column j. -/
theorem gather_rows_apply {α : Type} {K D N w : Nat}
    (d : GatherDims ⟨2, ![K, D]⟩ ⟨2, ![N, 1]⟩ ⟨2, ![N, D]⟩)
    (hoff : d.offsetDims = [1]) (hcoll : d.collapsedSliceDims = [0]) (hob : d.operandBatchingDims = [])
    (hsim : d.startIndexMap = [0]) (hivd : d.indexVectorDim = 1) (hK : 0 < K)
    (x : (⟨2, ![K, D]⟩ : Shape).Idx → α) (idx : IVec ⟨2, ![N, 1]⟩ w) (n : Fin N) (j : Fin D) :
    Host.gather d x idx (ix2 n j)
      = x (ix2 (⟨min (idx (ix2 n (0 : Fin 1))).toInt.toNat (K - 1), by omega⟩ : Fin K) j) := by
  unfold Host.gather
  congr 1
  funext a
  -- no operand axis is a batching axis, so the batching coordinate vanishes on both axes
  have hb : ∀ c : Fin 2, c ∉ d.operandBatchingDims := fun c => by rw [hob]; exact List.not_mem_nil
  have h10 : (1 : Fin 2) ≠ 0 := by decide
  refine Fin.ext ?_
  show d.start (ix2 n j) idx a + d.batchCoord (ix2 n j) a + d.offCoord (ix2 n j) a = _
  rw [GatherDims.batchCoord_eq_zero _ _ _ (hb a), Nat.add_zero]
  match a with
  | ⟨0, _⟩ =>
    -- the row axis: collapsed (offset coordinate 0, slice size 1) and start-indexed, so the operand index is the
    -- start index of position n clamped to K - 1
    show d.start (ix2 n j) idx (0 : Fin 2) + d.offCoord (ix2 n j) (0 : Fin 2)
      = min (idx (ix2 n (0 : Fin 1))).toInt.toNat (K - 1)
    have hc : (0 : Fin 2) ∈ d.collapsedSliceDims := by rw [hcoll]; exact List.mem_singleton.mpr rfl
    have hk : (0 : Fin 2) ∉ d.sKept := fun h => ((GatherDims.mem_sKept _ _).mp h).1 hc
    have hm : (0 : Fin 2) ∈ d.startIndexMap := by rw [hsim]; exact List.mem_singleton.mpr rfl
    have hsl : d.sliceSizes 0 = 1 := d.slice_collapsed 0 hc
    -- the result's only batch axis is axis 0: a batch axis is not the offset axis 1
    have hbd : ∀ X : Fin 2, X ∈ d.batchDims → X = 0 := by
      intro X hX
      have h1 := (List.mem_filter.1 hX).2
      rw [hoff] at h1
      have h2 : X ≠ 1 := by simpa using h1
      apply Fin.ext
      have h3 : X.val ≠ 1 := fun h => h2 (Fin.ext h)
      have := X.isLt
      show X.val = 0
      omega
    -- the start index of result entry (n, j) is read at (n, 0): the batch coordinate n on axis 0, component 0 on
    -- the index vector's axis 1
    have hsi : d.siIdx (ix2 n j) ⟨List.idxOf (0 : Fin 2) d.startIndexMap, List.idxOf_lt_length_iff.2 hm⟩
        = ix2 n (0 : Fin 1) := by
      funext b
      match b with
      | ⟨0, _⟩ =>
        unfold GatherDims.siIdx
        rw [dif_neg (by rw [hivd]; simp)]
        unfold GatherDims.siCoord
        apply Fin.ext
        simp only [Fin.val_cast]
        have e : ∀ X : Fin 2, X = 0 → ((ix2 n j) X).val = n.val := fun X h => by subst h; rfl
        exact e _ (hbd _ (List.getElem_mem _))
      | ⟨1, _⟩ =>
        unfold GatherDims.siIdx
        rw [dif_pos (by rw [hivd])]
        apply Fin.ext
        show List.idxOf (0 : Fin 2) d.startIndexMap = 0
        rw [hsim]; simp
    rw [GatherDims.offCoord_eq_zero _ _ _ hk, Nat.add_zero]
    unfold GatherDims.start
    rw [dif_pos hm, hsi]
    show min (idx (ix2 n (0 : Fin 1))).toInt.toNat (K - d.sliceSizes 0) = min (idx (ix2 n (0 : Fin 1))).toInt.toNat (K - 1)
    rw [hsl]
  | ⟨1, _⟩ =>
    -- the column axis: not start-indexed (start 0) and the one kept axis, read through the result's offset axis 1,
    -- so the operand index is j
    show d.start (ix2 n j) idx (1 : Fin 2) + d.offCoord (ix2 n j) (1 : Fin 2) = j.val
    have hm : (1 : Fin 2) ∉ d.startIndexMap := by
      rw [hsim]; exact fun h => h10 (List.mem_singleton.1 h)
    have hk : (1 : Fin 2) ∈ d.sKept := by
      rw [GatherDims.mem_sKept, hcoll]
      exact ⟨fun h => h10 (List.mem_singleton.1 h), hb 1⟩
    have hod : ∀ X : Fin 2, X ∈ d.offsetDims → X = 1 := by
      intro X hX; rw [hoff] at hX; exact List.mem_singleton.1 hX
    unfold GatherDims.start
    rw [dif_neg hm, Nat.zero_add]
    unfold GatherDims.offCoord
    rw [dif_pos hk]
    have e : ∀ X : Fin 2, X = 1 → ((ix2 n j) X).val = j.val := fun X h => by subst h; rfl
    exact e _ (hod _ (List.getElem_mem _))

end Cert.LibGatherRows
-- ==== Proof.RefLevels.lean ====
/-
  The reference's eight gathers, each read at one entry. For level l the reference slices level l out of the table
  and views it as a 1024 × 1024 matrix, takes column l of the indices, wraps the negative ones by one table length,
  and gathers the matrix's rows at the wrapped indices; the gather clamps a start index into 0 … 1023. For an index
  in -1024 … 1023 the wrapped index is already in 0 … 1023, so the clamp does nothing, and entry (n, d) of the
  gathered array is the table's entry (l, r, d) with r the wrapped index of (n, l).
-/
import proofs.«425374_j18786186952924_3_alg».proof.Proof.Gen.ReferenceIdeal.Read
import proofs.«425374_j18786186952924_3_alg».proof.Proof.LibGatherRows
import proofs.«425374_j18786186952924_3_alg».proof.Proof.WrapIndex
import Idealize.ShloMosaic.PureOps.Ideal
import Idealize.ShloMosaic.Lib.ValueIdx
import Idealize.ShloMosaic.Lib.Pipeline.Value

noncomputable section

namespace Cert.ReferenceIdeal.Levels

open Cert.ReferenceIdeal Cert.ReferenceIdeal.Gen Cert.ReferenceIdeal.Read Cert.WrapIndex
open Idealize.ShloMosaic Idealize.ShloMosaic.TcCoe Idealize.ShloMosaic.ValueIdx

/-- A row gather whose table is level l of the three-axis table and whose start index at position n is the wrapped
    index of a word v in -1024 … 1023: the wrapped index is below 1024, so it reads the same signed and unsigned and
    the clamp into 0 … 1023 leaves it alone; entry (n, d) is the table's entry (l, row, d). -/
theorem gather_level (l : Fin 8) (x1 : (⟨S8x1024x1024, .f32⟩ : BufTy).Contents (Elt Ideal))
    (tbl : (⟨S1024x1024, .f32⟩ : BufTy).Contents (Elt Ideal)) (idx : (⟨S65536x1, .i32⟩ : BufTy).Contents (Elt Ideal))
    (v : BitVec 32) (n : Fin 65536) (d : Fin 1024)
    (htbl : ∀ r : Fin 1024, tbl (ix2 r d) = x1 (ix3 l r d))
    (hidx : (idx (ix2 n (0 : Fin 1)) : BitVec 32) = wrap v)
    (hlo : -1024 ≤ v.toInt) (hhi : v.toInt < 1024) :
    Host.gather gather_S1024x1024_S65536x1_S65536x1024_1_0_n_n_0_1_11024 tbl idx (ix2 n d)
      = x1 (ix3 l (rowOf (wrap v)) d) := by
  have hg := Cert.LibGatherRows.gather_rows_apply (K := 1024) (D := 1024) (N := 65536) (w := 32)
    gather_S1024x1024_S65536x1_S65536x1024_1_0_n_n_0_1_11024 rfl rfl rfl rfl rfl (by decide) tbl idx n d
  rw [hg, htbl]
  have hw := wrap_lt v hlo hhi
  have hc := BitVec.toInt_eq_toNat_cond (wrap v)
  congr 2
  apply Fin.ext
  show min (BitVec.toInt (idx (ix2 n (0 : Fin 1)))).toNat (1024 - 1) = (wrap v).toNat % 1024
  rw [hidx, Nat.mod_eq_of_lt hw]
  split at hc <;> omega

/-- The table index a level's slice and reshape read at (r, d): level l on axis 0, and the flat position
    r · 1024 + d split back into row r and column d. -/
theorem tbl_idx (l : Fin 8) (r d : Fin 1024) (i : S8x1024x1024.Idx)
    (h0 : (i 0).val = l.val) (h1 : (i 1).val = (r.val * 1024 + d.val) / 1024 % 1024)
    (h2 : (i 2).val = (r.val * 1024 + d.val) % 1024) : i = ix3 l r d := by
  have hr := r.isLt
  have hd := d.isLt
  funext a
  match a with
  | ⟨0, _⟩ => exact Fin.ext h0
  | ⟨1, _⟩ => apply Fin.ext; show (i 1).val = r.val; omega
  | ⟨2, _⟩ => apply Fin.ext; show (i 2).val = d.val; omega

/-- The index-array position a level's column slice and reshape read at n: row n, column l. -/
theorem col_idx (l : Fin 8) (n : Fin 65536) (i : S65536x8.Idx)
    (h0 : (i 0).val = n.val / 1) (h1 : (i 1).val = l.val) : i = ix2 n l := by
  funext a
  match a with
  | ⟨0, _⟩ => apply Fin.ext; show (i 0).val = n.val; omega
  | ⟨1, _⟩ => exact Fin.ext h1

/-- Level 0: the gathered entry (n, d) is the table's entry (0, row, d) at the row the wrapped index names. -/
theorem level0 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (0 : Fin 8)) : BitVec 32).toInt) (hhi : (x0 (ix2 n (0 : Fin 8)) : BitVec 32).toInt < 1024) :
    val_main_v10 (F := Ideal) x0 x1 (ix2 n d) = x1 (ix3 (0 : Fin 8) (rowOf (wrap (x0 (ix2 n (0 : Fin 8))))) d) := by
  unfold val_main_v10
  refine gather_level 0 x1 _ _ (x0 (ix2 n (0 : Fin 8))) n d (fun r => ?_) ?_ hlo hhi
  · -- the table stage: level 0 sliced out and viewed as a matrix
    have hi : idx_main_v0 (idx_main_v1 (ix2 r d)) = ix3 (0 : Fin 8) r d := tbl_idx 0 r d _ rfl rfl rfl
    rw [val_main_v1_apply, val_main_v0_apply, hi]
  · -- the index stage: column 0 of the indices, a negative one with 1024 added
    have hi : idx_main_v2 (idx_main_v3 (idx_main_v9 (ix2 n (0 : Fin 1)))) = ix2 n (0 : Fin 8) := col_idx 0 n _ rfl rfl
    rw [val_main_v9_apply, val_main_v8_apply, val_main_v5_apply, val_main_v7_apply, val_main_v4_apply, val_main_v6_apply,
      val_main_c_apply, val_main_c_0_apply, val_main_v3_apply, val_main_v2_apply, hi]
    rfl

/-- Level 1: the gathered entry (n, d) is the table's entry (1, row, d) at the row the wrapped index names. -/
theorem level1 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (1 : Fin 8)) : BitVec 32).toInt) (hhi : (x0 (ix2 n (1 : Fin 8)) : BitVec 32).toInt < 1024) :
    val_main_v21 (F := Ideal) x0 x1 (ix2 n d) = x1 (ix3 (1 : Fin 8) (rowOf (wrap (x0 (ix2 n (1 : Fin 8))))) d) := by
  unfold val_main_v21
  refine gather_level 1 x1 _ _ (x0 (ix2 n (1 : Fin 8))) n d (fun r => ?_) ?_ hlo hhi
  · -- the table stage: level 1 sliced out and viewed as a matrix
    have hi : idx_main_v11 (idx_main_v12 (ix2 r d)) = ix3 (1 : Fin 8) r d := tbl_idx 1 r d _ rfl rfl rfl
    rw [val_main_v12_apply, val_main_v11_apply, hi]
  · -- the index stage: column 1 of the indices, a negative one with 1024 added
    have hi : idx_main_v13 (idx_main_v14 (idx_main_v20 (ix2 n (0 : Fin 1)))) = ix2 n (1 : Fin 8) := col_idx 1 n _ rfl rfl
    rw [val_main_v20_apply, val_main_v19_apply, val_main_v16_apply, val_main_v18_apply, val_main_v15_apply, val_main_v17_apply,
      val_main_c_1_apply, val_main_c_2_apply, val_main_v14_apply, val_main_v13_apply, hi]
    rfl

/-- Level 2: the gathered entry (n, d) is the table's entry (2, row, d) at the row the wrapped index names. -/
theorem level2 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (2 : Fin 8)) : BitVec 32).toInt) (hhi : (x0 (ix2 n (2 : Fin 8)) : BitVec 32).toInt < 1024) :
    val_main_v33 (F := Ideal) x0 x1 (ix2 n d) = x1 (ix3 (2 : Fin 8) (rowOf (wrap (x0 (ix2 n (2 : Fin 8))))) d) := by
  unfold val_main_v33
  refine gather_level 2 x1 _ _ (x0 (ix2 n (2 : Fin 8))) n d (fun r => ?_) ?_ hlo hhi
  · -- the table stage: level 2 sliced out and viewed as a matrix
    have hi : idx_main_v23 (idx_main_v24 (ix2 r d)) = ix3 (2 : Fin 8) r d := tbl_idx 2 r d _ rfl rfl rfl
    rw [val_main_v24_apply, val_main_v23_apply, hi]
  · -- the index stage: column 2 of the indices, a negative one with 1024 added
    have hi : idx_main_v25 (idx_main_v26 (idx_main_v32 (ix2 n (0 : Fin 1)))) = ix2 n (2 : Fin 8) := col_idx 2 n _ rfl rfl
    rw [val_main_v32_apply, val_main_v31_apply, val_main_v28_apply, val_main_v30_apply, val_main_v27_apply, val_main_v29_apply,
      val_main_c_3_apply, val_main_c_4_apply, val_main_v26_apply, val_main_v25_apply, hi]
    rfl

/-- Level 3: the gathered entry (n, d) is the table's entry (3, row, d) at the row the wrapped index names. -/
theorem level3 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (3 : Fin 8)) : BitVec 32).toInt) (hhi : (x0 (ix2 n (3 : Fin 8)) : BitVec 32).toInt < 1024) :
    val_main_v45 (F := Ideal) x0 x1 (ix2 n d) = x1 (ix3 (3 : Fin 8) (rowOf (wrap (x0 (ix2 n (3 : Fin 8))))) d) := by
  unfold val_main_v45
  refine gather_level 3 x1 _ _ (x0 (ix2 n (3 : Fin 8))) n d (fun r => ?_) ?_ hlo hhi
  · -- the table stage: level 3 sliced out and viewed as a matrix
    have hi : idx_main_v35 (idx_main_v36 (ix2 r d)) = ix3 (3 : Fin 8) r d := tbl_idx 3 r d _ rfl rfl rfl
    rw [val_main_v36_apply, val_main_v35_apply, hi]
  · -- the index stage: column 3 of the indices, a negative one with 1024 added
    have hi : idx_main_v37 (idx_main_v38 (idx_main_v44 (ix2 n (0 : Fin 1)))) = ix2 n (3 : Fin 8) := col_idx 3 n _ rfl rfl
    rw [val_main_v44_apply, val_main_v43_apply, val_main_v40_apply, val_main_v42_apply, val_main_v39_apply, val_main_v41_apply,
      val_main_c_5_apply, val_main_c_6_apply, val_main_v38_apply, val_main_v37_apply, hi]
    rfl

/-- Level 4: the gathered entry (n, d) is the table's entry (4, row, d) at the row the wrapped index names. -/
theorem level4 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (4 : Fin 8)) : BitVec 32).toInt) (hhi : (x0 (ix2 n (4 : Fin 8)) : BitVec 32).toInt < 1024) :
    val_main_v57 (F := Ideal) x0 x1 (ix2 n d) = x1 (ix3 (4 : Fin 8) (rowOf (wrap (x0 (ix2 n (4 : Fin 8))))) d) := by
  unfold val_main_v57
  refine gather_level 4 x1 _ _ (x0 (ix2 n (4 : Fin 8))) n d (fun r => ?_) ?_ hlo hhi
  · -- the table stage: level 4 sliced out and viewed as a matrix
    have hi : idx_main_v47 (idx_main_v48 (ix2 r d)) = ix3 (4 : Fin 8) r d := tbl_idx 4 r d _ rfl rfl rfl
    rw [val_main_v48_apply, val_main_v47_apply, hi]
  · -- the index stage: column 4 of the indices, a negative one with 1024 added
    have hi : idx_main_v49 (idx_main_v50 (idx_main_v56 (ix2 n (0 : Fin 1)))) = ix2 n (4 : Fin 8) := col_idx 4 n _ rfl rfl
    rw [val_main_v56_apply, val_main_v55_apply, val_main_v52_apply, val_main_v54_apply, val_main_v51_apply, val_main_v53_apply,
      val_main_c_7_apply, val_main_c_8_apply, val_main_v50_apply, val_main_v49_apply, hi]
    rfl

/-- Level 5: the gathered entry (n, d) is the table's entry (5, row, d) at the row the wrapped index names. -/
theorem level5 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (5 : Fin 8)) : BitVec 32).toInt) (hhi : (x0 (ix2 n (5 : Fin 8)) : BitVec 32).toInt < 1024) :
    val_main_v69 (F := Ideal) x0 x1 (ix2 n d) = x1 (ix3 (5 : Fin 8) (rowOf (wrap (x0 (ix2 n (5 : Fin 8))))) d) := by
  unfold val_main_v69
  refine gather_level 5 x1 _ _ (x0 (ix2 n (5 : Fin 8))) n d (fun r => ?_) ?_ hlo hhi
  · -- the table stage: level 5 sliced out and viewed as a matrix
    have hi : idx_main_v59 (idx_main_v60 (ix2 r d)) = ix3 (5 : Fin 8) r d := tbl_idx 5 r d _ rfl rfl rfl
    rw [val_main_v60_apply, val_main_v59_apply, hi]
  · -- the index stage: column 5 of the indices, a negative one with 1024 added
    have hi : idx_main_v61 (idx_main_v62 (idx_main_v68 (ix2 n (0 : Fin 1)))) = ix2 n (5 : Fin 8) := col_idx 5 n _ rfl rfl
    rw [val_main_v68_apply, val_main_v67_apply, val_main_v64_apply, val_main_v66_apply, val_main_v63_apply, val_main_v65_apply,
      val_main_c_9_apply, val_main_c_10_apply, val_main_v62_apply, val_main_v61_apply, hi]
    rfl

/-- Level 6: the gathered entry (n, d) is the table's entry (6, row, d) at the row the wrapped index names. -/
theorem level6 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (6 : Fin 8)) : BitVec 32).toInt) (hhi : (x0 (ix2 n (6 : Fin 8)) : BitVec 32).toInt < 1024) :
    val_main_v81 (F := Ideal) x0 x1 (ix2 n d) = x1 (ix3 (6 : Fin 8) (rowOf (wrap (x0 (ix2 n (6 : Fin 8))))) d) := by
  unfold val_main_v81
  refine gather_level 6 x1 _ _ (x0 (ix2 n (6 : Fin 8))) n d (fun r => ?_) ?_ hlo hhi
  · -- the table stage: level 6 sliced out and viewed as a matrix
    have hi : idx_main_v71 (idx_main_v72 (ix2 r d)) = ix3 (6 : Fin 8) r d := tbl_idx 6 r d _ rfl rfl rfl
    rw [val_main_v72_apply, val_main_v71_apply, hi]
  · -- the index stage: column 6 of the indices, a negative one with 1024 added
    have hi : idx_main_v73 (idx_main_v74 (idx_main_v80 (ix2 n (0 : Fin 1)))) = ix2 n (6 : Fin 8) := col_idx 6 n _ rfl rfl
    rw [val_main_v80_apply, val_main_v79_apply, val_main_v76_apply, val_main_v78_apply, val_main_v75_apply, val_main_v77_apply,
      val_main_c_11_apply, val_main_c_12_apply, val_main_v74_apply, val_main_v73_apply, hi]
    rfl

/-- Level 7: the gathered entry (n, d) is the table's entry (7, row, d) at the row the wrapped index names. -/
theorem level7 (x0 : (⟨S65536x8, .i32⟩ : BufTy).Contents (Elt Ideal)) (x1 : (⟨S8x1024x1024, .f32⟩ : BufTy).Contents (Elt Ideal))
    (n : Fin 65536) (d : Fin 1024)
    (hlo : -1024 ≤ (x0 (ix2 n (7 : Fin 8)) : BitVec 32).toInt) (hhi : (x0 (ix2 n (7 : Fin 8)) : BitVec 32).toInt < 1024) :
    val_main_v93 (F := Ideal) x0 x1 (ix2 n d) = x1 (ix3 (7 : Fin 8) (rowOf (wrap (x0 (ix2 n (7 : Fin 8))))) d) := by
  unfold val_main_v93
  refine gather_level 7 x1 _ _ (x0 (ix2 n (7 : Fin 8))) n d (fun r => ?_) ?_ hlo hhi
  · -- the table stage: level 7 sliced out and viewed as a matrix
    have hi : idx_main_v83 (idx_main_v84 (ix2 r d)) = ix3 (7 : Fin 8) r d := tbl_idx 7 r d _ rfl rfl rfl
    rw [val_main_v84_apply, val_main_v83_apply, hi]
  · -- the index stage: column 7 of the indices, a negative one with 1024 added
    have hi : idx_main_v85 (idx_main_v86 (idx_main_v92 (ix2 n (0 : Fin 1)))) = ix2 n (7 : Fin 8) := col_idx 7 n _ rfl rfl
    rw [val_main_v92_apply, val_main_v91_apply, val_main_v88_apply, val_main_v90_apply, val_main_v87_apply, val_main_v89_apply,
      val_main_c_13_apply, val_main_c_14_apply, val_main_v86_apply, val_main_v85_apply, hi]
    rfl

end Cert.ReferenceIdeal.Levels

end
-- ==== Proof.RefTotal.lean ====
/-
  The reference's result array is the specification. The reference adds the eight gathered arrays level 0 first;
  each gathered entry is the table's entry at the row the wrapped index names, so the sum is the specification's,
  term by term and in the same order.
-/
import proofs.«425374_j18786186952924_3_alg».proof.Proof.RefLevels
import proofs.«425374_j18786186952924_3_alg».proof.Proof.Spec

noncomputable section

namespace Cert.ReferenceIdeal.Levels

open Cert.ReferenceIdeal Cert.ReferenceIdeal.Gen Cert.ReferenceIdeal.Read Cert.WrapIndex Cert.Spec
open Idealize.ShloMosaic Idealize.ShloMosaic.TcCoe Idealize.ShloMosaic.ValueIdx

/-- For indices in -1024 … 1023 the reference's last stage is the specification of its two arguments. -/
theorem ref_eq_G (x0 : (⟨S65536x8, .i32⟩ : BufTy).Contents (Elt Ideal)) (x1 : (⟨S8x1024x1024, .f32⟩ : BufTy).Contents (Elt Ideal))
    (hr : ∀ (n : Fin 65536) (l : Fin 8), -1024 ≤ (x0 (ix2 n l) : BitVec 32).toInt ∧ (x0 (ix2 n l) : BitVec 32).toInt < 1024) :
    val_main_v94 (F := Ideal) x0 x1 = G x0 x1 := by
  funext i
  obtain ⟨n, d, rfl⟩ : ∃ (n : Fin 65536) (d : Fin 1024), i = ix2 n d := ⟨i 0, i 1, eq_ix2 i⟩
  rw [val_main_v94_apply, val_main_v82_apply, val_main_v70_apply, val_main_v58_apply, val_main_v46_apply,
    val_main_v34_apply, val_main_v22_apply,
    level0 x0 x1 n d (hr n 0).1 (hr n 0).2, level1 x0 x1 n d (hr n 1).1 (hr n 1).2,
    level2 x0 x1 n d (hr n 2).1 (hr n 2).2, level3 x0 x1 n d (hr n 3).1 (hr n 3).2,
    level4 x0 x1 n d (hr n 4).1 (hr n 4).2, level5 x0 x1 n d (hr n 5).1 (hr n 5).2,
    level6 x0 x1 n d (hr n 6).1 (hr n 6).2, level7 x0 x1 n d (hr n 7).1 (hr n 7).2]
  rfl

end Cert.ReferenceIdeal.Levels

end
-- ==== Proof.PreRange.lean ====
/-
  The index range the precondition states. The precondition is the conjunction of three tests, each reduced with
  "and" over a whole array: every table entry is finite, every index is at least -1024 (compared as signed words),
  every index is below 1024. Read at one index, the last two say that its signed value lies in -1024 … 1023.
-/
import proofs.«425374_j18786186952924_3_alg».proof.Pre_finite_inputs
import proofs.«425374_j18786186952924_3_alg».proof.Proof.Gen.Pre_finite_inputs
import Idealize.ShloMosaic.PureOps.Ideal
import Idealize.ShloMosaic.Lib.ValueIdx
import Idealize.ShloMosaic.Lib.ReduceAll

namespace Cert.PreRange

open Idealize.ShloMosaic Idealize.ShloMosaic.ValueIdx

/-- Under the precondition every index, read as a signed integer, lies in -1024 … 1023. -/
theorem range_of_pre (x : IVec Cert.Pre_finite_inputs.S65536x8 32) (w : FVec Ideal Cert.Pre_finite_inputs.S8x1024x1024 .f32)
    (h : Cert.Pre_finite_inputs.fn (F := Ideal) x w = fun _ => 1#1) (n : Fin 65536) (l : Fin 8) :
    -1024 ≤ (x (ix2 n l)).toInt ∧ (x (ix2 n l)).toInt < 1024 := by
  -- the precondition, read at the one index of its scalar result
  have e := congrFun h ValueIdx.ix0
  unfold Cert.Pre_finite_inputs.fn at e
  simp only [andi] at e
  -- a conjunction of words is 1 exactly when each is
  rw [IntOp.andi_eq_one, IntOp.andi_eq_one] at e
  obtain ⟨⟨-, hge⟩, hlt⟩ := e
  -- a reduction by "and" over a whole array that is 1 had a 1 at every index: here at (n, l)
  have hge' := Host.reduce_andi_all _ _ _ _ _ hge (ix2 n l)
  have hlt' := Host.reduce_andi_all _ _ _ _ _ hlt (ix2 n l)
  -- at that index each test compares the index word with the broadcast constant
  simp only [cmpi, broadcastInDim, constantI] at hge' hlt'
  rw [IntOp.cmpi_sge] at hge'
  rw [IntOp.cmpi_slt] at hlt'
  -- the constants, read signed
  rw [show (4294966272#32 : BitVec 32).toInt = -1024 from by decide] at hge'
  rw [show (1024#32 : BitVec 32).toInt = 1024 from by decide] at hlt'
  exact ⟨hge', hlt'⟩

end Cert.PreRange
-- ==== Proof.lean ====
/-
  The certificate of the eight-level embedding sum. Kernel and reference both compute, at entry (n, d), the sum over
  the eight levels l of the table's entry (l, r, d) at the row r that index (n, l) names, level 0 first.

  The kernel brings each index into the table by the floored remainder by 1024, builds per level the one-hot matrix
  of the reduced indices and multiplies it with the level's table on the matrix unit, accumulating into the output
  block; over the extended reals a one-hot row times a matrix is the matrix's row (0 · w = 0 and 1 · w = w for every
  extended real w), and a change of float format is the identity. The reference wraps a negative index by adding
  1024 and gathers rows, the gather clamping the row number into 0 … 1023.

  The two index rules agree exactly on the indices -1024 … 1023, where both give the row congruent to the index
  modulo 1024 (outside that range the reference clamps while the kernel reduces, and they read different rows), so
  the claim is stated for indices in that range: the range in which the reference's own indexing stays inside the
  table. Finiteness of the table is not used.

  The frames are the generated ones; the reference's frame is its run with the result dropped; the idealization
  rewrote nothing. The kernel's value is read off its blockwise run (each grid point's block is the chain of level
  updates, and the 128 blocks tile the array), the reference's off its run stage by stage.
-/
import proofs.«425374_j18786186952924_3_alg».proof.Defs
import proofs.«425374_j18786186952924_3_alg».proof.Proof.Gen.Kernel
import proofs.«425374_j18786186952924_3_alg».proof.Proof.Gen.Kernel.Skeleton
import proofs.«425374_j18786186952924_3_alg».proof.Proof.Gen.Kernel.Launch
import proofs.«425374_j18786186952924_3_alg».proof.Proof.Gen.Kernel.Points
import proofs.«425374_j18786186952924_3_alg».proof.Proof.Gen.Kernel.Frame
import proofs.«425374_j18786186952924_3_alg».proof.Proof.Gen.KernelIdeal
import proofs.«425374_j18786186952924_3_alg».proof.Proof.Gen.KernelIdeal.Skeleton
import proofs.«425374_j18786186952924_3_alg».proof.Proof.Gen.KernelIdeal.Launch
import proofs.«425374_j18786186952924_3_alg».proof.Proof.Gen.KernelIdeal.Points
import proofs.«425374_j18786186952924_3_alg».proof.Proof.Gen.KernelIdeal.Frame
import proofs.«425374_j18786186952924_3_alg».proof.Proof.Gen.ReferenceIdeal
import proofs.«425374_j18786186952924_3_alg».proof.Proof.Gen.Pre_finite_inputs
import proofs.«425374_j18786186952924_3_alg».proof.Proof.Gen.KernelIdeal.Value
import proofs.«425374_j18786186952924_3_alg».proof.Proof.Gen.ReferenceIdeal.Run
import proofs.«425374_j18786186952924_3_alg».proof.Proof.Gen.ReferenceIdeal.Read
import proofs.«425374_j18786186952924_3_alg».proof.Proof.Region
import proofs.«425374_j18786186952924_3_alg».proof.Proof.RefTotal
import proofs.«425374_j18786186952924_3_alg».proof.Proof.PreRange
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition both programs end with the specification of the argument arrays in their result. -/
theorem algebraic : Cert.algebraic_KernelIdeal_ReferenceIdeal := by
  intro m ρ m' ρ' hpre hagree
  have hr : ∀ c : Dev Cert.KernelIdeal.nD, Cert.KernelIdeal.Region.InRange m c := fun c n l =>
    Cert.PreRange.range_of_pre _ _ (hpre c) n l
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Region.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2]
  exact Cert.ReferenceIdeal.Levels.ref_eq_G _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
